-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S512x128 : Shape := ⟨2, ![512, 128]⟩
abbrev S512x64 : Shape := ⟨2, ![512, 64]⟩
abbrev S512x8192 : Shape := ⟨2, ![512, 8192]⟩
abbrev S1x8192 : Shape := ⟨2, ![1, 8192]⟩
abbrev S1x512 : Shape := ⟨2, ![1, 512]⟩
abbrev S16x512 : Shape := ⟨2, ![16, 512]⟩

abbrev nBuf : Space → Nat
  | .hbm => 9
  | .vmem => 8
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k0_off2 (i : grid0.Coords) : Fin 2 → Nat :=
  let c0_11 : Index := 0#32
  let arg0 : BitVec 32 := BitVec.ofNat 32 (i 0).val
  let c512_i32_10 : BitVec 32 := 512#32
  let v17 : BitVec 32 := Scalar.muli arg0 c512_i32_10
  let v18 : Index := Scalar.indexCast v17
  ![0, v18.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S16x8192_S16x8192_0_0 : ∀ a, (![0, 0] : Fin 2 → Nat) a + S16x8192.size a ≤ S16x8192.size a
  h_S16x8192 : 0 < S16x8192.numel
  h_S512x128 : 0 < S512x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  h_S16x512 : 0 < S16x512.numel
  broadcasts_S1x512_S16x512 : S1x512.Broadcasts S16x512
  shapeCasts_S16x8192_S16x8192 : S16x8192.ShapeCasts S16x8192
  dot_S64x128_S8192x128_S64x8192_1_1_0_0_n_n_wf : DotDims.WF S64x128 S8192x128 S64x8192 [1] [1] [0] [0] [] []
  dot_S512x128_S64x128_S512x64_1_1_0_0_n_n_wf : DotDims.WF S512x128 S64x128 S512x64 [1] [1] [0] [0] [] []
  dot_S512x64_S64x8192_S512x8192_1_0_0_1_n_n_wf : DotDims.WF S512x64 S64x8192 S512x8192 [1] [0] [0] [1] [] []
  dot_S1x8192_S512x8192_S1x512_1_1_0_0_n_n_wf : DotDims.WF S1x8192 S512x8192 S1x512 [1] [1] [0] [0] [] []
  dot_S16x512_S512x8192_S16x8192_1_0_0_1_n_n_wf : DotDims.WF S16x512 S512x8192 S16x8192 [1] [0] [0] [1] [] []
  hrank0 : 0 < grid0.rank
  k0_off1_inb : ∀ i : grid0.Coords, ∀ a, (k0_off1 i) a + S512x128.size a ≤ S8192x128.size a
  k0_off2_inb : ∀ i : grid0.Coords, ∀ a, (k0_off2 i) a + S16x512.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S64x8192_S512x8192_1_0_0_1_n_n : DotDims S512x64 S64x8192 S512x8192 where
  lhsContracting := [1]
  rhsContracting := [0]
  lhsNonContracting := [0]
  rhsNonContracting := [1]
  lhsBatch := []
  rhsBatch := []
  wf := dot_S512x64_S64x8192_S512x8192_1_0_0_1_n_n_wf
def dot_S1x8192_S512x8192_S1x512_1_1_0_0_n_n : DotDims S1x8192 S512x8192 S1x512 where
  lhsContracting := [1]
  rhsContracting := [1]
  lhsNonContracting := [0]
  rhsNonContracting := [0]
  lhsBatch := []
  rhsBatch := []
  wf := dot_S1x8192_S512x8192_S1x512_1_1_0_0_n_n_wf
def dot_S16x512_S512x8192_S16x8192_1_0_0_1_n_n : DotDims S16x512 S512x8192 S16x8192 where
  lhsContracting := [1]
  rhsContracting := [0]
  lhsNonContracting := [0]
  rhsNonContracting := [1]
  lhsBatch := []
  rhsBatch := []
  wf := dot_S16x512_S512x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.Spec.lean ====
/-
  The mathematics both programs compute, over the extended reals, as functions of the six argument arrays
  (belief b : [16, 8192], embedding e : [8192, 128], key weights and bias, query weights and bias).

    query i h   = (sum over d of e[i,d] * Wq[h,d]) + bq[h]
    keyT  h s   = (sum over d of Wk[h,d] * e[s,d]) + bk[h]
    logit i j   = sum over h of query i h * keyT h j
    weight i j  = exp (logit i j)
    rowSum i    = sum over j of weight i j
    out b j     = sum over i of (b[b,i] / rowSum i) * weight i j                      (the un-shifted soft-max)
    refOut b j  = sum over i of b[b,i] * (exp (logit i j - rowMax i) / (0 + sum over j' of exp (logit i j' - rowMax i)))

  with rowMax i the row's maximum taken from -infinity. On finite inputs every logit is a real number, the row maximum
  is one too, and the shift cancels between numerator and denominator: out = refOut (Algebra.lean).
-/
import Idealize.ShloMosaic.PureOps.Ideal
import Idealize.ShloMosaic.Lib.ValueIdx

noncomputable section

namespace Cert.Spec

open Idealize.ShloMosaic Idealize.ShloMosaic.ValueIdx

/-- The argument arrays' shapes. -/
abbrev SBel : Shape := ⟨2, ![16, 8192]⟩
abbrev SEmb : Shape := ⟨2, ![8192, 128]⟩
abbrev SW : Shape := ⟨2, ![64, 128]⟩
abbrev SB : Shape := ⟨1, ![64]⟩

/-- The pattern of f32's minus infinity, as an extended real. -/
abbrev negInf : EReal := Ideal.ofBits .f32 0xFF800000#32

section
variable (bel : SBel.Idx → EReal) (emb : SEmb.Idx → EReal) (wk : SW.Idx → EReal) (bk : SB.Idx → EReal)
  (wq : SW.Idx → EReal) (bq : SB.Idx → EReal)

/-- The query features of state `i`. -/
def query (i : Fin 8192) (h : Fin 64) : EReal := (∑ d : Fin 128, emb (ix2 i d) * wq (ix2 h d)) + bq (ix1 h)

/-- The key features, feature-major. -/
def keyT (h : Fin 64) (s : Fin 8192) : EReal := (∑ d : Fin 128, wk (ix2 h d) * emb (ix2 s d)) + bk (ix1 h)

/-- The transition logit from state `i` to state `j`. -/
def logit (i j : Fin 8192) : EReal := ∑ h : Fin 64, query emb wq bq i h * keyT emb wk bk h j

/-- Its exponential. -/
def weight (i j : Fin 8192) : EReal := Ideal.exp (logit emb wk bk wq bq i j)

/-- A row's normaliser. -/
def rowSum (i : Fin 8192) : EReal := ∑ j : Fin 8192, weight emb wk bk wq bq i j

/-- The belief pushed through the row-normalised weights: each belief entry divided by its row's normaliser first. -/
def out (b : Fin 16) (j : Fin 8192) : EReal :=
  ∑ i : Fin 8192, Ideal.div (bel (ix2 b i)) (rowSum emb wk bk wq bq i) * weight emb wk bk wq bq i j

/-- A row's maximum logit, taken from minus infinity (twice, as the soft-max lowers it). -/
def rowMax (i : Fin 8192) : EReal :=
  max negInf ((Finset.univ : Finset (Fin 8192)).fold max negInf (fun k => logit emb wk bk wq bq i k))

/-- The belief pushed through the shifted soft-max of the logits. -/
def refOut (b : Fin 16) (j : Fin 8192) : EReal :=
  ∑ i : Fin 8192, bel (ix2 b i) *
    Ideal.div (Ideal.exp (logit emb wk bk wq bq i j - rowMax emb wk bk wq bq i))
      (Ideal.ofBits .f32 0x00000000#32 + ∑ k : Fin 8192, Ideal.exp (logit emb wk bk wq bq i k - rowMax emb wk bk wq bq i))

/-- The result array. -/
def outVec : SBel.Idx → EReal := fun y => out bel emb wk bk wq bq (y 0) (y 1)

end

end Cert.Spec

end
-- ==== Proof.Algebra.lean ====
/-
  The shift in a soft-max cancels: on finite inputs the shifted form `refOut` and the un-shifted form `out` of Spec.lean
  are the same extended real.

  Every array entry is a real number, so every query, key feature and logit is one (sums and products of reals), and a
  row's maximum, a fold of `max` from minus infinity over a non-empty index set of reals, is one too. With logits `l k`
  and the row's maximum `m` real, `exp (l k - m) = exp (l k) / exp m`, the normaliser of the shifted form is the un-shifted one
  divided by `exp m`, both normalisers are positive (so no division meets its corner at zero), and the factor `exp m`
  cancels between numerator and denominator.
-/
import proofs.«113585_g5935644803188_cont_9to1c4b_610_2_alg».proof.Proof.Spec
import Mathlib.Data.EReal.Inv
import Mathlib.Analysis.SpecialFunctions.Exp

noncomputable section

namespace Cert.Spec

open Idealize.ShloMosaic Idealize.ShloMosaic.ValueIdx

/-! ### Extended reals that are real numbers: closed under sum, product, finite sums and non-empty maxima -/

private theorem real_add {x y : EReal} (hx : ∃ a : ℝ, x = (a : EReal)) (hy : ∃ b : ℝ, y = (b : EReal)) :
    ∃ c : ℝ, x + y = (c : EReal) := by
  obtain ⟨a, rfl⟩ := hx; obtain ⟨b, rfl⟩ := hy; exact ⟨a + b, (EReal.coe_add a b).symm⟩

private theorem real_mul {x y : EReal} (hx : ∃ a : ℝ, x = (a : EReal)) (hy : ∃ b : ℝ, y = (b : EReal)) :
    ∃ c : ℝ, x * y = (c : EReal) := by
  obtain ⟨a, rfl⟩ := hx; obtain ⟨b, rfl⟩ := hy; exact ⟨a * b, (EReal.coe_mul a b).symm⟩

private theorem real_sum {ι : Type} (s : Finset ι) (f : ι → EReal) :
    (∀ i ∈ s, ∃ a : ℝ, f i = (a : EReal)) → ∃ c : ℝ, ∑ i ∈ s, f i = (c : EReal) := by
  classical
  refine Finset.induction_on s ?_ ?_
  · intro _; exact ⟨0, by simp⟩
  · intro a s ha ih h
    rw [Finset.sum_insert ha]
    exact real_add (h a (Finset.mem_insert_self a s)) (ih fun i hi => h i (Finset.mem_insert_of_mem hi))

/-- The coercion of the reals into the extended reals commutes with finite sums. -/
private theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum, folded from `⊥`, of real numbers over a non-empty index set is a real number. -/
private theorem real_fold_max {ι : Type} (s : Finset ι) (f : ι → EReal) (hf : ∀ i, ∃ a : ℝ, f i = (a : EReal)) :
    s.Nonempty → ∃ c : ℝ, s.fold max ⊥ f = (c : EReal) := by
  classical
  refine Finset.induction_on s ?_ ?_
  · intro h; exact absurd h Finset.not_nonempty_empty
  · intro a s ha ih _
    rw [Finset.fold_insert ha]
    obtain ⟨x, hx⟩ := hf a
    rcases s.eq_empty_or_nonempty with rfl | hs
    · rw [Finset.fold_empty, hx]; exact ⟨x, max_eq_left bot_le⟩
    · obtain ⟨m, hm⟩ := ih hs
      rw [hm, hx]; exact ⟨max x m, ((EReal.coe_strictMono.monotone).map_max).symm⟩

/-- The pattern of minus infinity is the bottom extended real. -/
private theorem negInf_eq_bot : negInf = ⊥ := by simp [negInf, Ideal.ofBits, Ideal.ieee]

/-! ### One row's term, over the reals and then over the extended reals -/

/-- The real identity: the shift `m` cancels between numerator and normaliser. -/
private theorem real_term {ι : Type} (s : Finset ι) (hs : s.Nonempty) (β m lj : ℝ) (l : ι → ℝ) :
    β * (Real.exp (lj - m) * (∑ k ∈ s, Real.exp (l k - m))⁻¹)
      = β * (∑ k ∈ s, Real.exp (l k))⁻¹ * Real.exp lj := by
  have hZ : (∑ k ∈ s, Real.exp (l k)) ≠ 0 := (Finset.sum_pos (fun k _ => Real.exp_pos (l k)) hs).ne'
  have hm : Real.exp m ≠ 0 := (Real.exp_pos m).ne'
  have hsum : ∑ k ∈ s, Real.exp (l k - m) = (∑ k ∈ s, Real.exp (l k)) / Real.exp m := by
    rw [Finset.sum_div]; exact Finset.sum_congr rfl fun k _ => Real.exp_sub _ _
  rw [hsum, Real.exp_sub]
  field_simp

/-- The same term over the extended reals, with the two divisions' corners at zero ruled out by positivity. -/
private theorem ereal_term {ι : Type} (s : Finset ι) (hs : s.Nonempty) (β m : ℝ) (l : ι → ℝ) (j : ι) :
    (β : EReal) * Ideal.div (Ideal.exp ((l j : EReal) - (m : EReal)))
        (Ideal.ofBits .f32 0x00000000#32 + ∑ k ∈ s, Ideal.exp ((l k : EReal) - (m : EReal)))
      = Ideal.div (β : EReal) (∑ k ∈ s, Ideal.exp (l k : EReal)) * Ideal.exp (l j : EReal) := by
  have h0 : Ideal.ofBits .f32 0x00000000#32 = (0 : EReal) := by simp [Ideal.ofBits, Ideal.ieee]
  have hZ : (0 : ℝ) < ∑ k ∈ s, Real.exp (l k) := Finset.sum_pos (fun k _ => Real.exp_pos (l k)) hs
  have hZ' : (0 : ℝ) < ∑ k ∈ s, Real.exp (l k - m) := Finset.sum_pos (fun k _ => Real.exp_pos (l k - m)) hs
  have e1 : ∑ k ∈ s, Ideal.exp ((l k : EReal) - (m : EReal)) = ((∑ k ∈ s, Real.exp (l k - m) : ℝ) : EReal) := by
    rw [coe_sum]; exact Finset.sum_congr rfl fun k _ => by rw [← EReal.coe_sub, Ideal.exp_coe]
  have e2 : ∑ k ∈ s, Ideal.exp (l k : EReal) = ((∑ k ∈ s, Real.exp (l k) : ℝ) : EReal) := by
    rw [coe_sum]; exact Finset.sum_congr rfl fun k _ => Ideal.exp_coe _
  rw [h0, zero_add, e1, e2, ← EReal.coe_sub, Ideal.exp_coe, Ideal.exp_coe]
  unfold Ideal.div
  rw [if_neg (EReal.coe_ne_zero.mpr hZ'.ne'), if_neg (EReal.coe_ne_zero.mpr hZ.ne'), ← EReal.coe_inv, ← EReal.coe_inv,
    ← EReal.coe_mul, ← EReal.coe_mul, ← EReal.coe_mul, ← EReal.coe_mul]
  exact congrArg Real.toEReal (real_term s hs β m (l j) l)

/-! ### The features and logits of real arrays are real -/

private theorem query_real (emb : SEmb.Idx → EReal) (wq : SW.Idx → EReal) (bq : SB.Idx → EReal)
    (hemb : ∀ y, ∃ r : ℝ, emb y = (r : EReal)) (hwq : ∀ y, ∃ r : ℝ, wq y = (r : EReal))
    (hbq : ∀ y, ∃ r : ℝ, bq y = (r : EReal)) (i : Fin 8192) (h : Fin 64) :
    ∃ r : ℝ, query emb wq bq i h = (r : EReal) := by
  unfold query
  exact real_add (real_sum _ _ fun d _ => real_mul (hemb _) (hwq _)) (hbq _)

private theorem keyT_real (emb : SEmb.Idx → EReal) (wk : SW.Idx → EReal) (bk : SB.Idx → EReal)
    (hemb : ∀ y, ∃ r : ℝ, emb y = (r : EReal)) (hwk : ∀ y, ∃ r : ℝ, wk y = (r : EReal))
    (hbk : ∀ y, ∃ r : ℝ, bk y = (r : EReal)) (h : Fin 64) (s : Fin 8192) :
    ∃ r : ℝ, keyT emb wk bk h s = (r : EReal) := by
  unfold keyT
  exact real_add (real_sum _ _ fun d _ => real_mul (hwk _) (hemb _)) (hbk _)

private theorem logit_real (emb : SEmb.Idx → EReal) (wk : SW.Idx → EReal) (bk : SB.Idx → EReal)
    (wq : SW.Idx → EReal) (bq : SB.Idx → EReal)
    (hemb : ∀ y, ∃ r : ℝ, emb y = (r : EReal))
    (hwk : ∀ y, ∃ r : ℝ, wk y = (r : EReal)) (hbk : ∀ y, ∃ r : ℝ, bk y = (r : EReal))
    (hwq : ∀ y, ∃ r : ℝ, wq y = (r : EReal)) (hbq : ∀ y, ∃ r : ℝ, bq y = (r : EReal)) (i j : Fin 8192) :
    ∃ r : ℝ, logit emb wk bk wq bq i j = (r : EReal) := by
  unfold logit
  exact real_sum _ _ fun h _ => real_mul (query_real emb wq bq hemb hwq hbq i h) (keyT_real emb wk bk hemb hwk hbk h j)

/-- On arrays all of whose entries are real numbers, the belief pushed through the shifted soft-max of the logits is the
    belief, divided row by row by the un-shifted normaliser, pushed through the un-shifted exponentials. -/
theorem refOut_eq_out (bel : SBel.Idx → EReal) (emb : SEmb.Idx → EReal) (wk : SW.Idx → EReal) (bk : SB.Idx → EReal)
    (wq : SW.Idx → EReal) (bq : SB.Idx → EReal)
    (hbel : ∀ y, ∃ r : ℝ, bel y = (r : EReal)) (hemb : ∀ y, ∃ r : ℝ, emb y = (r : EReal))
    (hwk : ∀ y, ∃ r : ℝ, wk y = (r : EReal)) (hbk : ∀ y, ∃ r : ℝ, bk y = (r : EReal))
    (hwq : ∀ y, ∃ r : ℝ, wq y = (r : EReal)) (hbq : ∀ y, ∃ r : ℝ, bq y = (r : EReal))
    (b : Fin 16) (j : Fin 8192) :
    refOut bel emb wk bk wq bq b j = out bel emb wk bk wq bq b j := by
  -- the logits, as real numbers
  choose L hL using logit_real emb wk bk wq bq hemb hwk hbk hwq hbq
  -- each row's maximum, as a real number
  have hM : ∀ i, ∃ r : ℝ, rowMax emb wk bk wq bq i = (r : EReal) := by
    intro i
    unfold rowMax
    rw [negInf_eq_bot]
    obtain ⟨m, hm⟩ := real_fold_max Finset.univ (fun k => logit emb wk bk wq bq i k) (fun k => ⟨L i k, hL i k⟩)
      Finset.univ_nonempty
    rw [hm]; exact ⟨m, max_eq_right bot_le⟩
  choose M hM using hM
  unfold refOut out
  refine Finset.sum_congr rfl fun i _ => ?_
  obtain ⟨β, hβ⟩ := hbel (ix2 b i)
  unfold rowSum weight
  simp only [hL, hM, hβ]
  exact ereal_term Finset.univ Finset.univ_nonempty β (M i) (L i) j

end Cert.Spec

end
-- ==== Proof.Finite.lean ====
/-
  The precondition says every entry of every argument array is below plus infinity in absolute value: each is a real number.
-/
import proofs.«113585_g5935644803188_cont_9to1c4b_610_2_alg».proof.Pre_finite_inputs
import proofs.«113585_g5935644803188_cont_9to1c4b_610_2_alg».proof.Proof.Gen.Pre_finite_inputs
import Idealize.ShloMosaic.PureOps.Ideal
import Idealize.ShloMosaic.Lib.ValueIdx
import Idealize.ShloMosaic.Lib.ReduceAll

noncomputable section

namespace Cert.Finite

open Cert.Pre_finite_inputs Idealize.ShloMosaic Idealize.ShloMosaic.ValueIdx

/-- The f32 pattern with all exponent bits set, sign and fraction zero, denotes plus infinity. -/
private theorem ofBits_inf : Ideal.ofBits .f32 0x7F800000#32 = (⊤ : EReal) := by
  simp [Ideal.ofBits, Ideal.ieee]

/-- An extended real whose absolute value is strictly below plus infinity is a real number: at either infinity the
absolute value is plus infinity itself. -/
private theorem real_of_abs_lt_top (a : EReal) (h : max a (-a) < (⊤ : EReal)) : ∃ r : ℝ, a = (r : EReal) := by
  induction a using EReal.rec with
  | bot => exact absurd h (by simp)
  | top => exact absurd h (by simp)
  | coe r => exact ⟨r, rfl⟩

/-- One array of any shape: if the conjunction over all its entries of "the absolute value is below plus infinity"
is one, then every entry is a real number. -/
private theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    ∀ y, ∃ r : ℝ, x y = (r : EReal) := by
  intro y
  -- the scalar shape has exactly one index
  haveI : Subsingleton S_.Idx := ⟨fun a b => funext fun d => d.elim0⟩
  -- the conjunction being one, its term at y is one
  have hy := Host.reduce_andi_all _ _ hr hu j e y
  apply real_of_abs_lt_top
  -- that term is the comparison of max (x y) (-(x y)) against the constant, which is plus infinity
  have hc : Ideal.cmp .olt (max (x y) (-(x y))) (Ideal.ofBits .f32 0x7F800000#32) = 1#1 := hy
  rw [ofBits_inf] at hc
  by_contra hn
  simp [Ideal.cmp, hn] at hc

/-- If the printed finiteness predicate is all ones on six arrays of extended reals, every entry of each is a real number. -/
theorem real_of_pre [Cert.Pre_finite_inputs.Facts]
    (x0 : FVec Ideal S16x8192 .f32) (x1 : FVec Ideal S8192x128 .f32) (x2 : FVec Ideal S64x128 .f32)
    (x3 : FVec Ideal S64 .f32) (x4 : FVec Ideal S64x128 .f32) (x5 : FVec Ideal S64 .f32)
    (h : Cert.Pre_finite_inputs.fn (F := Ideal) x0 x1 x2 x3 x4 x5 = fun _ => 1#1) :
    (∀ y, ∃ r : ℝ, x0 y = (r : EReal)) ∧ (∀ y, ∃ r : ℝ, x1 y = (r : EReal)) ∧ (∀ y, ∃ r : ℝ, x2 y = (r : EReal))
      ∧ (∀ y, ∃ r : ℝ, x3 y = (r : EReal)) ∧ (∀ y, ∃ r : ℝ, x4 y = (r : EReal)) ∧ (∀ y, ∃ r : ℝ, x5 y = (r : EReal)) := by
  -- the predicate at its one index is the six-fold conjunction of the per-array conjunctions
  have h0 := congrFun h ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ _ e0, real_of_all x1 _ _ _ _ e1, real_of_all x2 _ _ _ _ e2,
    real_of_all x3 _ _ _ _ e3, real_of_all x4 _ _ _ _ e4, real_of_all x5 _ _ _ _ e5⟩

end Cert.Finite

end
-- ==== Proof.RefValue.lean ====
/-
  The reference's result, read one operation at a time at an index, is the shifted soft-max form `Spec.refOut`.
-/
import proofs.«113585_g5935644803188_cont_9to1c4b_610_2_alg».proof.Proof.Spec
import proofs.«113585_g5935644803188_cont_9to1c4b_610_2_alg».proof.Proof.Gen.ReferenceIdeal.Read
import Idealize.ShloMosaic.PureOps.Reduce

noncomputable section

namespace Cert.RefValue

open Cert.ReferenceIdeal Cert.ReferenceIdeal.Gen Cert.ReferenceIdeal.Read
open Idealize.ShloMosaic Idealize.ShloMosaic.ValueIdx

section Stages

variable (x1 : (⟨S8192x128, .f32⟩ : BufTy).Contents (Elt Ideal))
    (x2 : (⟨S64x128, .f32⟩ : BufTy).Contents (Elt Ideal)) (x3 : (⟨S64, .f32⟩ : BufTy).Contents (Elt Ideal))
    (x4 : (⟨S64x128, .f32⟩ : BufTy).Contents (Elt Ideal)) (x5 : (⟨S64, .f32⟩ : BufTy).Contents (Elt Ideal))

/-- The query projection with its bias, at state `i` and feature `h`: the contraction over the embedding axis of the
    embedding row against the transposed query weights, plus the bias broadcast along the states. -/
private theorem v4_eq (i : Fin 8192) (h : Fin 64) :
    val_main_v4 (F := Ideal) x1 x4 x5 (ix2 i h) = Cert.Spec.query x1 x4 x5 i h := by
  rw [val_main_v4_apply, val_main_v1_apply, val_main_v3_apply, val_main_v2_apply, Ideal.addf_def]
  unfold Cert.Spec.query
  refine congrArg₂ (· + ·) (Finset.sum_congr rfl fun d _ => ?_) ?_
  · rw [val_main_v0_apply]
    exact congrArg₂ (· * ·)
      (congrArg x1 (funext fun a => by match a with | ⟨0, _⟩ => rfl | ⟨1, _⟩ => rfl))
      (congrArg x4 (funext fun a => by match a with | ⟨0, _⟩ => rfl | ⟨1, _⟩ => rfl))
  · exact congrArg x5 (funext fun a => by match a with | ⟨0, _⟩ => rfl)

/-- The key projection with its bias, read feature-major: the transposed stage at (h, s) is the un-transposed one at
    (s, h), whose product has the embedding on the left; the extended reals' product commutes. -/
private theorem v10_eq (h : Fin 64) (s : Fin 8192) :
    val_main_v10 (F := Ideal) x1 x2 x3 (ix2 h s) = Cert.Spec.keyT x1 x2 x3 h s := by
  rw [val_main_v10_apply, val_main_v9_apply, val_main_v6_apply, val_main_v8_apply, val_main_v7_apply, Ideal.addf_def]
  unfold Cert.Spec.keyT
  refine congrArg₂ (· + ·) (Finset.sum_congr rfl fun d _ => ?_) ?_
  · rw [val_main_v5_apply]
    refine (mul_comm _ _).trans ?_
    exact congrArg₂ (· * ·)
      (congrArg x2 (funext fun a => by match a with | ⟨0, _⟩ => rfl | ⟨1, _⟩ => rfl))
      (congrArg x1 (funext fun a => by match a with | ⟨0, _⟩ => rfl | ⟨1, _⟩ => rfl))
  · exact congrArg x3 (funext fun a => by match a with | ⟨0, _⟩ => rfl)

/-- The logit of the transition from state `i` to state `j`: the contraction over the features of query against key. -/
private theorem v11_eq (i j : Fin 8192) :
    val_main_v11 (F := Ideal) x1 x2 x3 x4 x5 (ix2 i j) = Cert.Spec.logit x1 x2 x3 x4 x5 i j := by
  rw [val_main_v11_apply]
  unfold Cert.Spec.logit
  refine Finset.sum_congr rfl fun h _ => congrArg₂ (· * ·) ?_ ?_
  · exact (congrArg (val_main_v4 (F := Ideal) x1 x4 x5)
      (funext fun a => by match a with | ⟨0, _⟩ => rfl | ⟨1, _⟩ => rfl)).trans (v4_eq x1 x4 x5 i h)
  · exact (congrArg (val_main_v10 (F := Ideal) x1 x2 x3)
      (funext fun a => by match a with | ⟨0, _⟩ => rfl | ⟨1, _⟩ => rfl)).trans (v10_eq x1 x2 x3 h j)

/-- The row reduction with maximum, from minus infinity: the fold of `max` over the row's logits. -/
private theorem v12_eq (i : Fin 8192) :
    val_main_v12 (F := Ideal) x1 x2 x3 x4 x5 (ix1 i)
      = (Finset.univ : Finset (Fin 8192)).fold max Cert.Spec.negInf (fun k => Cert.Spec.logit x1 x2 x3 x4 x5 i k) := by
  have hR : S8192x8192.Reduces [1] S8192 := by decide
  unfold val_main_v12
  refine (Host.reduce_eq_fold_single _ _ _ reducesTo_S8192x8192_S8192_d1 hR h_S_ (ix1 i)).trans ?_
  refine Finset.fold_congr fun k _ => ?_
  exact (congrArg (val_main_v11 (F := Ideal) x1 x2 x3 x4 x5)
    (funext fun a => Fin.ext (by match a with | ⟨0, _⟩ => rfl | ⟨1, _⟩ => rfl))).trans (v11_eq x1 x2 x3 x4 x5 i k)

/-- The row maximum as the soft-max lowers it: the maximum of minus infinity and the row reduction. -/
private theorem v14_eq (i : Fin 8192) :
    val_main_v14 (F := Ideal) x1 x2 x3 x4 x5 (ix1 i) = Cert.Spec.rowMax x1 x2 x3 x4 x5 i := by
  rw [val_main_v14_apply, val_main_v13_apply, val_main_cst_0_apply, Ideal.maximumf_def, Ideal.ofBits_def, v12_eq]
  rfl

/-- The shifted exponential at (i, j). -/
private theorem v18_eq (i j : Fin 8192) :
    val_main_v18 (F := Ideal) x1 x2 x3 x4 x5 (ix2 i j)
      = Ideal.exp (Cert.Spec.logit x1 x2 x3 x4 x5 i j - Cert.Spec.rowMax x1 x2 x3 x4 x5 i) := by
  rw [val_main_v18_apply, val_main_v17_apply, val_main_v16_apply, val_main_v15_apply, Ideal.hostUnary_exp_def,
    Ideal.subf_def, v11_eq]
  refine congrArg (fun z => Ideal.exp (_ - z)) ?_
  exact (congrArg (val_main_v14 (F := Ideal) x1 x2 x3 x4 x5)
    (funext fun a => by match a with | ⟨0, _⟩ => rfl)).trans (v14_eq x1 x2 x3 x4 x5 i)

/-- The row's normaliser: zero plus the sum of the row's shifted exponentials. -/
private theorem v19_eq (i : Fin 8192) :
    val_main_v19 (F := Ideal) x1 x2 x3 x4 x5 (ix1 i)
      = Ideal.ofBits .f32 0x00000000#32
        + ∑ k : Fin 8192, Ideal.exp (Cert.Spec.logit x1 x2 x3 x4 x5 i k - Cert.Spec.rowMax x1 x2 x3 x4 x5 i) := by
  rw [val_main_v19_apply, val_main_cst_1_apply, Ideal.ofBits_def]
  refine congrArg (_ + ·) (Finset.sum_congr rfl fun k _ => ?_)
  exact (congrArg (val_main_v18 (F := Ideal) x1 x2 x3 x4 x5)
    (funext fun a => by match a with | ⟨0, _⟩ => rfl | ⟨1, _⟩ => rfl)).trans (v18_eq x1 x2 x3 x4 x5 i k)

/-- The soft-max weight at (i, j): the shifted exponential over the row's normaliser. -/
private theorem v22_eq (i j : Fin 8192) :
    val_main_v22 (F := Ideal) x1 x2 x3 x4 x5 (ix2 i j)
      = Ideal.div (Ideal.exp (Cert.Spec.logit x1 x2 x3 x4 x5 i j - Cert.Spec.rowMax x1 x2 x3 x4 x5 i))
          (Ideal.ofBits .f32 0x00000000#32
            + ∑ k : Fin 8192, Ideal.exp (Cert.Spec.logit x1 x2 x3 x4 x5 i k - Cert.Spec.rowMax x1 x2 x3 x4 x5 i)) := by
  rw [val_main_v22_apply, val_main_v21_apply, val_main_v20_apply, Ideal.hostDivf_def, v18_eq]
  refine congrArg (Ideal.div _) ?_
  exact (congrArg (val_main_v19 (F := Ideal) x1 x2 x3 x4 x5)
    (funext fun a => by match a with | ⟨0, _⟩ => rfl)).trans (v19_eq x1 x2 x3 x4 x5 i)

end Stages

/-- The reference's last stage at an index is `Spec.refOut` of the argument arrays at the index's coordinates. -/
theorem ref_eq (x0 : (⟨S16x8192, .f32⟩ : BufTy).Contents (Elt Ideal)) (x1 : (⟨S8192x128, .f32⟩ : BufTy).Contents (Elt Ideal))
    (x2 : (⟨S64x128, .f32⟩ : BufTy).Contents (Elt Ideal)) (x3 : (⟨S64, .f32⟩ : BufTy).Contents (Elt Ideal))
    (x4 : (⟨S64x128, .f32⟩ : BufTy).Contents (Elt Ideal)) (x5 : (⟨S64, .f32⟩ : BufTy).Contents (Elt Ideal)) (y : S16x8192.Idx) :
    val_main_v23 (F := Ideal) x0 x1 x2 x3 x4 x5 y = Cert.Spec.refOut x0 x1 x2 x3 x4 x5 (y 0) (y 1) := by
  obtain ⟨b, j, rfl⟩ : ∃ (b : Fin 16) (j : Fin 8192), y = ix2 b j := ⟨y 0, y 1, eq_ix2 y⟩
  show _ = Cert.Spec.refOut x0 x1 x2 x3 x4 x5 b j
  rw [val_main_v23_apply]
  unfold Cert.Spec.refOut
  refine Finset.sum_congr rfl fun i _ => congrArg₂ (· * ·) ?_ ?_
  · exact congrArg x0 (funext fun a => by match a with | ⟨0, _⟩ => rfl | ⟨1, _⟩ => rfl)
  · exact (congrArg (val_main_v22 (F := Ideal) x1 x2 x3 x4 x5)
      (funext fun a => by match a with | ⟨0, _⟩ => rfl | ⟨1, _⟩ => rfl)).trans (v22_eq x1 x2 x3 x4 x5 i j)

end Cert.RefValue

end
-- ==== Proof.KernelPieces.lean ====
/-
  What one run of the kernel body leaves in the output buffer and in the key-feature scratch, as values, for any float
  instance. The body has two cases. At the first grid point it computes the key features from the key weights, the
  whole embedding and the key bias, stores them in the scratch, zeroes the output buffer, and then does the common part
  on what it has just stored. At every later point it does the common part on what the point before left. The common
  part reads a block of 512 embedding rows and the matching 512 belief columns at an offset given by the grid
  coordinate, and adds the block's contribution to the output buffer.
-/
import proofs.«113585_g5935644803188_cont_9to1c4b_610_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The block of 512 embedding rows the body reads at grid coordinate `i`, out of the whole embedding. -/
def embRows (i : grid0.Coords) (x1 : Vec F S8192x128 .f32) : Vec F S512x128 .f32 :=
  View.ld x1 (Rect.unit (k0_off1 i) S512x128.size (Facts₀.k0_off1_inb i))

/-- The block of 512 belief columns the body reads at grid coordinate `i`, out of the whole belief. -/
def belCols (i : grid0.Coords) (x0 : Vec F S16x8192 .f32) : Vec F S16x512 .f32 :=
  View.ld x0 (Rect.unit (k0_off2 i) S16x512.size (Facts₀.k0_off2_inb i))

/-- A later point: the output buffer held `xo6` and the scratch `xs0`; the body leaves the common part's payload. -/
theorem out_B (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .f32) (h8 : a8.IsWhole) (hc : ¬cond0_0 i) (x0 : Vec F S16x8192 .f32) (x1 : Vec F S8192x128 .f32) (x2 : Vec F S64x128 .f32) (x3 : Vec F S1x64 .f32) (x4 : Vec F S64x128 .f32) (x5 : Vec F S64x1 .f32) (xo6 : Vec F S16x8192 .f32) (xs0 : Vec F S64x8192 .f32) :
    out0_B_6 c i a1 h1 a2 h2 a3 h3 a4 h4 a5 h5 a6 h6 a7 h7 a8 h8 hc x0 x1 x2 x3 x4 x5 xo6 xs0 = k0_pay3 (embRows i x1) x2 x3 xs0 (belCols i x0) xo6 := by
  unfold out0_B_6 embRows belCols
  rw [View.read_writes_eq_canon _ _ _ (cover0_B_6 c i a1 h1 a2 h2 a3 h3 a4 h4 a5 h5 a6 h6 a7 h7 a8 h8 hc x0 x1 x2 x3 x4 x5 xo6 xs0)]
  unfold kernelRun0_B
  dsimp only
  rw [View.canon_unit_zero hz]
  simp only [View.readAt_eq_ld, h1.read_unread, h2.read_unread, h3.read_unread, h4.read_unread, h7.read_unread, h8.read_unread,
    View.ld_unit_zero (S := S64x128) hz, View.ld_unit_zero (S := S1x64) hz, View.ld_unit_zero (S := S64x8192) hz,
    View.ld_unit_zero (S := S16x8192) hz]

/-- The first point: the scratch is left holding the key features. -/
theorem sout_A (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .f32) (h8 : a8.IsWhole) (hc : cond0_0 i) (x0 : Vec F S16x8192 .f32) (x1 : Vec F S8192x128 .f32) (x2 : Vec F S64x128 .f32) (x3 : Vec F S1x64 .f32) (x4 : Vec F S64x128 .f32) (x5 : Vec F S64x1 .f32) :
    sout0_A_0 c i a1 h1 a2 h2 a3 h3 a4 h4 a5 h5 a6 h6 a7 h7 a8 h8 hc x0 x1 x2 x3 x4 x5 = k0_pay1 x4 x1 x5 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero hz]
  simp only [View.readAt_eq_ld, h2.read_unread, h5.read_unread, h6.read_unread,
    View.ld_unit_zero (S := S64x128) hz, View.ld_unit_zero (S := S8192x128) hz, View.ld_unit_zero (S := S64x1) hz]

/-- The first point: the output buffer is left holding the common part's payload over the key features just stored and
    the zero block. -/
theorem out_A (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .f32) (h8 : a8.IsWhole) (hc : cond0_0 i) (x0 : Vec F S16x8192 .f32) (x1 : Vec F S8192x128 .f32) (x2 : Vec F S64x128 .f32) (x3 : Vec F S1x64 .f32) (x4 : Vec F S64x128 .f32) (x5 : Vec F S64x1 .f32) :
    out0_A_6 c i a1 h1 a2 h2 a3 h3 a4 h4 a5 h5 a6 h6 a7 h7 a8 h8 hc x0 x1 x2 x3 x4 x5 = k0_pay3 (embRows i x1) x2 x3 (k0_pay1 x4 x1 x5) (belCols i x0) (k0_pay2 (F := F)) := by
  unfold out0_A_6 embRows belCols
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_cons_unit_zero (S := S16x8192) hz]
  simp only [View.readAt_eq_ld, h1.read_unread, h2.read_unread, h3.read_unread, h4.read_unread, h5.read_unread, h6.read_unread,
    View.readCov_unit_zero (S := S64x8192) _ hz, View.readCov_unit_zero (S := S16x8192) _ hz,
    View.ld_unit_zero (S := S64x128) hz, View.ld_unit_zero (S := S1x64) hz, View.ld_unit_zero (S := S8192x128) hz,
    View.ld_unit_zero (S := S64x1) hz]

end Cert.KernelIdeal.Pieces

end
-- ==== Proof.KernelReads.lean ====
/-
  How the kernel's windows and sub-block reads index the argument arrays. Six of the seven windows have ONE block, the
  whole array, at every grid point, so the block read through the window is the array as the region found it; the
  two biases reach the kernel reshaped, the query bias as a row [1, 64] and the key bias as a column [64, 1]; and the body's
  two offset reads at grid point t take embedding rows 512 t .. 512 t + 511 and belief columns 512 t .. 512 t + 511.
-/
import proofs.«113585_g5935644803188_cont_9to1c4b_610_2_alg».proof.Proof.KernelPieces
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Reads

open Cert.KernelIdeal Cert.KernelIdeal.Gen Cert.KernelIdeal.Pieces Idealize.ShloMosaic.ValueIdx

variable {F : FTy → Type} [FloatOps F]
variable (m : (ℓ : Loc nD τ sig) → Buf (Elt F) ℓ)

/-! ## One-block windows read the whole array -/

theorem iblk0 (c : Dev nD) (t : Fin cfg0.N) : (iblk m c 0 t : Vec F S16x8192 .f32) = V m c main_arg0 := by
  funext j
  unfold iblk
  rw [View.read_apply]
  show V m c main_arg0 _ = V m c main_arg0 j
  refine congrArg (V m c main_arg0) (funext fun a => Fin.ext ?_)
  match a with
  | ⟨0, _⟩ => show win0_0.index t 0 * 16 + 1 * (j 0).val = (j 0).val; rw [show win0_0.index t 0 = 0 from rfl]; omega
  | ⟨1, _⟩ => show win0_0.index t 1 * 8192 + 1 * (j 1).val = (j 1).val; rw [show win0_0.index t 1 = 0 from rfl]; omega

theorem iblk1 (c : Dev nD) (t : Fin cfg0.N) : (iblk m c 1 t : Vec F S8192x128 .f32) = V m c main_arg1 := by
  funext j
  unfold iblk
  rw [View.read_apply]
  show V m c main_arg1 _ = V m c main_arg1 j
  refine congrArg (V m c main_arg1) (funext fun a => Fin.ext ?_)
  match a with
  | ⟨0, _⟩ => show win0_1.index t 0 * 8192 + 1 * (j 0).val = (j 0).val; rw [show win0_1.index t 0 = 0 from rfl]; omega
  | ⟨1, _⟩ => show win0_1.index t 1 * 128 + 1 * (j 1).val = (j 1).val; rw [show win0_1.index t 1 = 0 from rfl]; omega

theorem iblk2 (c : Dev nD) (t : Fin cfg0.N) : (iblk m c 2 t : Vec F S64x128 .f32) = V m c main_arg4 := by
  funext j
  unfold iblk
  rw [View.read_apply]
  show V m c main_arg4 _ = V m c main_arg4 j
  refine congrArg (V m c main_arg4) (funext fun a => Fin.ext ?_)
  match a with
  | ⟨0, _⟩ => show win0_2.index t 0 * 64 + 1 * (j 0).val = (j 0).val; rw [show win0_2.index t 0 = 0 from rfl]; omega
  | ⟨1, _⟩ => show win0_2.index t 1 * 128 + 1 * (j 1).val = (j 1).val; rw [show win0_2.index t 1 = 0 from rfl]; omega

theorem iblk3 (c : Dev nD) (t : Fin cfg0.N) : (iblk m c 3 t : Vec F S1x64 .f32) = V m c main_v0 := by
  funext j
  unfold iblk
  rw [View.read_apply]
  show V m c main_v0 _ = V m c main_v0 j
  refine congrArg (V m c main_v0) (funext fun a => Fin.ext ?_)
  match a with
  | ⟨0, _⟩ => show win0_3.index t 0 * 1 + 1 * (j 0).val = (j 0).val; rw [show win0_3.index t 0 = 0 from rfl]; omega
  | ⟨1, _⟩ => show win0_3.index t 1 * 64 + 1 * (j 1).val = (j 1).val; rw [show win0_3.index t 1 = 0 from rfl]; omega

theorem iblk4 (c : Dev nD) (t : Fin cfg0.N) : (iblk m c 4 t : Vec F S64x128 .f32) = V m c main_arg2 := by
  funext j
  unfold iblk
  rw [View.read_apply]
  show V m c main_arg2 _ = V m c main_arg2 j
  refine congrArg (V m c main_arg2) (funext fun a => Fin.ext ?_)
  match a with
  | ⟨0, _⟩ => show win0_4.index t 0 * 64 + 1 * (j 0).val = (j 0).val; rw [show win0_4.index t 0 = 0 from rfl]; omega
  | ⟨1, _⟩ => show win0_4.index t 1 * 128 + 1 * (j 1).val = (j 1).val; rw [show win0_4.index t 1 = 0 from rfl]; omega

theorem iblk5 (c : Dev nD) (t : Fin cfg0.N) : (iblk m c 5 t : Vec F S64x1 .f32) = V m c main_v1 := by
  funext j
  unfold iblk
  rw [View.read_apply]
  show V m c main_v1 _ = V m c main_v1 j
  refine congrArg (V m c main_v1) (funext fun a => Fin.ext ?_)
  match a with
  | ⟨0, _⟩ => show win0_5.index t 0 * 64 + 1 * (j 0).val = (j 0).val; rw [show win0_5.index t 0 = 0 from rfl]; omega
  | ⟨1, _⟩ => show win0_5.index t 1 * 1 + 1 * (j 1).val = (j 1).val; rw [show win0_5.index t 1 = 0 from rfl]; omega

/-! ## The two reshaped biases -/

/-- The query bias as the region finds it: the argument read as one row. -/
theorem V_v0 (c : Dev nD) : (V m c main_v0 : Vec F S1x64 .f32)
    = shapeCast S1x64 (m ((c : Thread nD τ).loc main_arg5)) Facts₀.shapeCasts_S64_S1x64 := by
  dsimp only [V, hostOps0]; after_results; rfl

/-- The key bias as the region finds it: the argument read as one column. -/
theorem V_v1 (c : Dev nD) : (V m c main_v1 : Vec F S64x1 .f32)
    = shapeCast S64x1 (m ((c : Thread nD τ).loc main_arg3)) Facts₀.shapeCasts_S64_S64x1 := by
  dsimp only [V, hostOps0]; after_results; rfl

theorem V_v0_apply (c : Dev nD) (h : Fin 64) :
    (V m c main_v0 : Vec F S1x64 .f32) (ix2 0 h) = m ((c : Thread nD τ).loc main_arg5) (ix1 h) := by
  rw [V_v0]
  exact shapeCast_apply _ _ _ _ (by rw [Shape.rowMajor_val_two]; show (S64.rowMajor (ix1 h)).val = 0 * 64 + h.val; rw [Shape.rowMajor_val_one]; show h.val = 0 * 64 + h.val; omega)

theorem V_v1_apply (c : Dev nD) (h : Fin 64) :
    (V m c main_v1 : Vec F S64x1 .f32) (ix2 h 0) = m ((c : Thread nD τ).loc main_arg3) (ix1 h) := by
  rw [V_v1]
  exact shapeCast_apply _ _ _ _ (by rw [Shape.rowMajor_val_two]; show (S64.rowMajor (ix1 h)).val = h.val * 1 + 0; rw [Shape.rowMajor_val_one]; show h.val = h.val * 1 + 0; omega)

/-! ## The body's two offset reads -/

theorem off1 : ∀ t : Fin cfg0.N, k0_off1 (grid0.coords t) 0 = 512 * t.val ∧ k0_off1 (grid0.coords t) 1 = 0 :=
  (by decide +kernel : ∀ t : Fin grid0.N, k0_off1 (grid0.coords t) 0 = 512 * t.val ∧ k0_off1 (grid0.coords t) 1 = 0)

theorem off2 : ∀ t : Fin cfg0.N, k0_off2 (grid0.coords t) 0 = 0 ∧ k0_off2 (grid0.coords t) 1 = 512 * t.val :=
  (by decide +kernel : ∀ t : Fin grid0.N, k0_off2 (grid0.coords t) 0 = 0 ∧ k0_off2 (grid0.coords t) 1 = 512 * t.val)

theorem row_lt (t : Fin cfg0.N) (r : Fin 512) : 512 * t.val + r.val < 8192 := by
  have hN : t.val < 16 := lt_of_lt_of_eq t.isLt (show cfg0.N = 16 from N_0)
  have := r.isLt
  omega

/-- Row r of the embedding block read at grid point t is row 512 t + r of the embedding. -/
theorem embRows_apply (t : Fin cfg0.N) (x1 : Vec F S8192x128 .f32) (r : Fin 512) (d : Fin 128) :
    embRows (grid0.coords t) x1 (ix2 r d) = x1 (ix2 ⟨512 * t.val + r.val, row_lt t r⟩ d) := by
  unfold embRows
  show x1 _ = x1 _
  refine congrArg x1 (funext fun a => Fin.ext ?_)
  match a with
  | ⟨0, _⟩ => show k0_off1 (grid0.coords t) 0 + 1 * r.val = 512 * t.val + r.val; rw [(off1 t).1]; omega
  | ⟨1, _⟩ => show k0_off1 (grid0.coords t) 1 + 1 * d.val = d.val; rw [(off1 t).2]; omega

/-- Column r of the belief block read at grid point t is column 512 t + r of the belief. -/
theorem belCols_apply (t : Fin cfg0.N) (x0 : Vec F S16x8192 .f32) (b : Fin 16) (r : Fin 512) :
    belCols (grid0.coords t) x0 (ix2 b r) = x0 (ix2 b ⟨512 * t.val + r.val, row_lt t r⟩) := by
  unfold belCols
  show x0 _ = x0 _
  refine congrArg x0 (funext fun a => Fin.ext ?_)
  match a with
  | ⟨0, _⟩ => show k0_off2 (grid0.coords t) 0 + 1 * b.val = b.val; rw [(off2 t).1]; omega
  | ⟨1, _⟩ => show k0_off2 (grid0.coords t) 1 + 1 * r.val = 512 * t.val + r.val; rw [(off2 t).2]; omega

end Cert.KernelIdeal.Reads

end
-- ==== Proof.KernelPayload.lean ====
/-
  The kernel body's two arithmetic payloads read at an index, at the extended reals: the key features stored once into
  the scratch, and one grid point's contribution added to the running output.
-/
import proofs.«113585_g5935644803188_cont_9to1c4b_610_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The five products, each read at an entry as a sum over its one contracted axis -/

private theorem lhs_kf_0 (i : S64x8192.Idx) (q : Cert.KernelIdeal.dot_S64x128_S8192x128_S64x8192_1_1_0_0_n_n.contr.Idx) :
    (Cert.KernelIdeal.dot_S64x128_S8192x128_S64x8192_1_1_0_0_n_n.lhsIdx i q 0).val = (i 0).val := by
  unfold DotDims.lhsIdx
  rw [dif_neg (show ¬(0 : Fin S64x128.rank) ∈ Cert.KernelIdeal.dot_S64x128_S8192x128_S64x8192_1_1_0_0_n_n.lhsBatch by decide), dif_pos (show (0 : Fin S64x128.rank) ∈ Cert.KernelIdeal.dot_S64x128_S8192x128_S64x8192_1_1_0_0_n_n.lhsNonContracting by decide)]
  rfl
private theorem lhs_kf_1 (i : S64x8192.Idx) (q : Cert.KernelIdeal.dot_S64x128_S8192x128_S64x8192_1_1_0_0_n_n.contr.Idx) :
    (Cert.KernelIdeal.dot_S64x128_S8192x128_S64x8192_1_1_0_0_n_n.lhsIdx i q 1).val = (q ⟨0, by decide⟩).val :=
  Cert.KernelIdeal.dot_S64x128_S8192x128_S64x8192_1_1_0_0_n_n.lhsIdx_val_of_single rfl i q
private theorem rhs_kf_1 (i : S64x8192.Idx) (q : Cert.KernelIdeal.dot_S64x128_S8192x128_S64x8192_1_1_0_0_n_n.contr.Idx) :
    (Cert.KernelIdeal.dot_S64x128_S8192x128_S64x8192_1_1_0_0_n_n.rhsIdx i q 1).val = (q ⟨0, by decide⟩).val :=
  Cert.KernelIdeal.dot_S64x128_S8192x128_S64x8192_1_1_0_0_n_n.rhsIdx_val_of_single rfl i q
private theorem rhs_kf_0 (i : S64x8192.Idx) (q : Cert.KernelIdeal.dot_S64x128_S8192x128_S64x8192_1_1_0_0_n_n.contr.Idx) :
    (Cert.KernelIdeal.dot_S64x128_S8192x128_S64x8192_1_1_0_0_n_n.rhsIdx i q 0).val = (i 1).val := by
  unfold DotDims.rhsIdx
  rw [dif_neg (show ¬(0 : Fin S8192x128.rank) ∈ Cert.KernelIdeal.dot_S64x128_S8192x128_S64x8192_1_1_0_0_n_n.rhsBatch by decide), dif_pos (show (0 : Fin S8192x128.rank) ∈ Cert.KernelIdeal.dot_S64x128_S8192x128_S64x8192_1_1_0_0_n_n.rhsNonContracting by decide)]
  rfl
/-- The key features' product: entry (h, s) is the key weights' row h against the embedding's row s. -/
private theorem matmul_kf (lhs : FVec Ideal S64x128 .f32) (rhs : FVec Ideal S8192x128 .f32) (p : Fin 64) (q : Fin 8192) :
    matmul Cert.KernelIdeal.dot_S64x128_S8192x128_S64x8192_1_1_0_0_n_n none lhs rhs (constant S64x8192 .f32 0x00000000#32) (ix2 p q)
      = ∑ k : Fin 128, lhs (ix2 p k) * rhs (ix2 q k) := by
  refine (Ideal.matmul_constant_zero_apply Cert.KernelIdeal.dot_S64x128_S8192x128_S64x8192_1_1_0_0_n_n none lhs rhs (ix2 p q)).trans ?_
  rw [← Equiv.sum_comp (contrEquiv1 Cert.KernelIdeal.dot_S64x128_S8192x128_S64x8192_1_1_0_0_n_n 128 rfl rfl).symm]
  refine Finset.sum_congr rfl fun k _ => ?_
  have hk := contrEquiv1_symm_val Cert.KernelIdeal.dot_S64x128_S8192x128_S64x8192_1_1_0_0_n_n 128 rfl rfl k
  have el : Cert.KernelIdeal.dot_S64x128_S8192x128_S64x8192_1_1_0_0_n_n.lhsIdx (ix2 p q) ((contrEquiv1 Cert.KernelIdeal.dot_S64x128_S8192x128_S64x8192_1_1_0_0_n_n 128 rfl rfl).symm k) = ix2 p k := funext fun a => Fin.ext (by
    match a with
    | ⟨0, _⟩ => exact lhs_kf_0 _ _
    | ⟨1, _⟩ => exact (lhs_kf_1 _ _).trans hk)
  have er : Cert.KernelIdeal.dot_S64x128_S8192x128_S64x8192_1_1_0_0_n_n.rhsIdx (ix2 p q) ((contrEquiv1 Cert.KernelIdeal.dot_S64x128_S8192x128_S64x8192_1_1_0_0_n_n 128 rfl rfl).symm k) = ix2 q k := funext fun a => Fin.ext (by
    match a with
    | ⟨0, _⟩ => exact rhs_kf_0 _ _
    | ⟨1, _⟩ => exact (rhs_kf_1 _ _).trans hk)
  rw [el, er]

private theorem lhs_qf_0 (i : S512x64.Idx) (q : Cert.KernelIdeal.dot_S512x128_S64x128_S512x64_1_1_0_0_n_n.contr.Idx) :
    (Cert.KernelIdeal.dot_S512x128_S64x128_S512x64_1_1_0_0_n_n.lhsIdx i q 0).val = (i 0).val := by
  unfold DotDims.lhsIdx
  rw [dif_neg (show ¬(0 : Fin S512x128.rank) ∈ Cert.KernelIdeal.dot_S512x128_S64x128_S512x64_1_1_0_0_n_n.lhsBatch by decide), dif_pos (show (0 : Fin S512x128.rank) ∈ Cert.KernelIdeal.dot_S512x128_S64x128_S512x64_1_1_0_0_n_n.lhsNonContracting by decide)]
  rfl
private theorem lhs_qf_1 (i : S512x64.Idx) (q : Cert.KernelIdeal.dot_S512x128_S64x128_S512x64_1_1_0_0_n_n.contr.Idx) :
    (Cert.KernelIdeal.dot_S512x128_S64x128_S512x64_1_1_0_0_n_n.lhsIdx i q 1).val = (q ⟨0, by decide⟩).val :=
  Cert.KernelIdeal.dot_S512x128_S64x128_S512x64_1_1_0_0_n_n.lhsIdx_val_of_single rfl i q
private theorem rhs_qf_1 (i : S512x64.Idx) (q : Cert.KernelIdeal.dot_S512x128_S64x128_S512x64_1_1_0_0_n_n.contr.Idx) :
    (Cert.KernelIdeal.dot_S512x128_S64x128_S512x64_1_1_0_0_n_n.rhsIdx i q 1).val = (q ⟨0, by decide⟩).val :=
  Cert.KernelIdeal.dot_S512x128_S64x128_S512x64_1_1_0_0_n_n.rhsIdx_val_of_single rfl i q
private theorem rhs_qf_0 (i : S512x64.Idx) (q : Cert.KernelIdeal.dot_S512x128_S64x128_S512x64_1_1_0_0_n_n.contr.Idx) :
    (Cert.KernelIdeal.dot_S512x128_S64x128_S512x64_1_1_0_0_n_n.rhsIdx i q 0).val = (i 1).val := by
  unfold DotDims.rhsIdx
  rw [dif_neg (show ¬(0 : Fin S64x128.rank) ∈ Cert.KernelIdeal.dot_S512x128_S64x128_S512x64_1_1_0_0_n_n.rhsBatch by decide), dif_pos (show (0 : Fin S64x128.rank) ∈ Cert.KernelIdeal.dot_S512x128_S64x128_S512x64_1_1_0_0_n_n.rhsNonContracting by decide)]
  rfl
/-- The query features' product: entry (r, h) is the embedding block's row r against the query weights' row h. -/
private theorem matmul_qf (lhs : FVec Ideal S512x128 .f32) (rhs : FVec Ideal S64x128 .f32) (p : Fin 512) (q : Fin 64) :
    matmul Cert.KernelIdeal.dot_S512x128_S64x128_S512x64_1_1_0_0_n_n none lhs rhs (constant S512x64 .f32 0x00000000#32) (ix2 p q)
      = ∑ k : Fin 128, lhs (ix2 p k) * rhs (ix2 q k) := by
  refine (Ideal.matmul_constant_zero_apply Cert.KernelIdeal.dot_S512x128_S64x128_S512x64_1_1_0_0_n_n none lhs rhs (ix2 p q)).trans ?_
  rw [← Equiv.sum_comp (contrEquiv1 Cert.KernelIdeal.dot_S512x128_S64x128_S512x64_1_1_0_0_n_n 128 rfl rfl).symm]
  refine Finset.sum_congr rfl fun k _ => ?_
  have hk := contrEquiv1_symm_val Cert.KernelIdeal.dot_S512x128_S64x128_S512x64_1_1_0_0_n_n 128 rfl rfl k
  have el : Cert.KernelIdeal.dot_S512x128_S64x128_S512x64_1_1_0_0_n_n.lhsIdx (ix2 p q) ((contrEquiv1 Cert.KernelIdeal.dot_S512x128_S64x128_S512x64_1_1_0_0_n_n 128 rfl rfl).symm k) = ix2 p k := funext fun a => Fin.ext (by
    match a with
    | ⟨0, _⟩ => exact lhs_qf_0 _ _
    | ⟨1, _⟩ => exact (lhs_qf_1 _ _).trans hk)
  have er : Cert.KernelIdeal.dot_S512x128_S64x128_S512x64_1_1_0_0_n_n.rhsIdx (ix2 p q) ((contrEquiv1 Cert.KernelIdeal.dot_S512x128_S64x128_S512x64_1_1_0_0_n_n 128 rfl rfl).symm k) = ix2 q k := funext fun a => Fin.ext (by
    match a with
    | ⟨0, _⟩ => exact rhs_qf_0 _ _
    | ⟨1, _⟩ => exact (rhs_qf_1 _ _).trans hk)
  rw [el, er]

private theorem lhs_lg_0 (i : S512x8192.Idx) (q : Cert.KernelIdeal.dot_S512x64_S64x8192_S512x8192_1_0_0_1_n_n.contr.Idx) :
    (Cert.KernelIdeal.dot_S512x64_S64x8192_S512x8192_1_0_0_1_n_n.lhsIdx i q 0).val = (i 0).val := by
  unfold DotDims.lhsIdx
  rw [dif_neg (show ¬(0 : Fin S512x64.rank) ∈ Cert.KernelIdeal.dot_S512x64_S64x8192_S512x8192_1_0_0_1_n_n.lhsBatch by decide), dif_pos (show (0 : Fin S512x64.rank) ∈ Cert.KernelIdeal.dot_S512x64_S64x8192_S512x8192_1_0_0_1_n_n.lhsNonContracting by decide)]
  rfl
private theorem lhs_lg_1 (i : S512x8192.Idx) (q : Cert.KernelIdeal.dot_S512x64_S64x8192_S512x8192_1_0_0_1_n_n.contr.Idx) :
    (Cert.KernelIdeal.dot_S512x64_S64x8192_S512x8192_1_0_0_1_n_n.lhsIdx i q 1).val = (q ⟨0, by decide⟩).val :=
  Cert.KernelIdeal.dot_S512x64_S64x8192_S512x8192_1_0_0_1_n_n.lhsIdx_val_of_single rfl i q
private theorem rhs_lg_0 (i : S512x8192.Idx) (q : Cert.KernelIdeal.dot_S512x64_S64x8192_S512x8192_1_0_0_1_n_n.contr.Idx) :
    (Cert.KernelIdeal.dot_S512x64_S64x8192_S512x8192_1_0_0_1_n_n.rhsIdx i q 0).val = (q ⟨0, by decide⟩).val :=
  Cert.KernelIdeal.dot_S512x64_S64x8192_S512x8192_1_0_0_1_n_n.rhsIdx_val_of_single rfl i q
private theorem rhs_lg_1 (i : S512x8192.Idx) (q : Cert.KernelIdeal.dot_S512x64_S64x8192_S512x8192_1_0_0_1_n_n.contr.Idx) :
    (Cert.KernelIdeal.dot_S512x64_S64x8192_S512x8192_1_0_0_1_n_n.rhsIdx i q 1).val = (i 1).val := by
  unfold DotDims.rhsIdx
  rw [dif_neg (show ¬(1 : Fin S64x8192.rank) ∈ Cert.KernelIdeal.dot_S512x64_S64x8192_S512x8192_1_0_0_1_n_n.rhsBatch by decide), dif_pos (show (1 : Fin S64x8192.rank) ∈ Cert.KernelIdeal.dot_S512x64_S64x8192_S512x8192_1_0_0_1_n_n.rhsNonContracting by decide)]
  rfl
/-- The logits' product: entry (r, k) is row r of the left factor against column k of the right one. -/
private theorem matmul_lg (lhs : FVec Ideal S512x64 .f32) (rhs : FVec Ideal S64x8192 .f32) (p : Fin 512) (q : Fin 8192) :
    matmul Cert.KernelIdeal.dot_S512x64_S64x8192_S512x8192_1_0_0_1_n_n none lhs rhs (constant S512x8192 .f32 0x00000000#32) (ix2 p q)
      = ∑ k : Fin 64, lhs (ix2 p k) * rhs (ix2 k q) := by
  refine (Ideal.matmul_constant_zero_apply Cert.KernelIdeal.dot_S512x64_S64x8192_S512x8192_1_0_0_1_n_n none lhs rhs (ix2 p q)).trans ?_
  rw [← Equiv.sum_comp (contrEquiv1 Cert.KernelIdeal.dot_S512x64_S64x8192_S512x8192_1_0_0_1_n_n 64 rfl rfl).symm]
  refine Finset.sum_congr rfl fun k _ => ?_
  have hk := contrEquiv1_symm_val Cert.KernelIdeal.dot_S512x64_S64x8192_S512x8192_1_0_0_1_n_n 64 rfl rfl k
  have el : Cert.KernelIdeal.dot_S512x64_S64x8192_S512x8192_1_0_0_1_n_n.lhsIdx (ix2 p q) ((contrEquiv1 Cert.KernelIdeal.dot_S512x64_S64x8192_S512x8192_1_0_0_1_n_n 64 rfl rfl).symm k) = ix2 p k := funext fun a => Fin.ext (by
    match a with
    | ⟨0, _⟩ => exact lhs_lg_0 _ _
    | ⟨1, _⟩ => exact (lhs_lg_1 _ _).trans hk)
  have er : Cert.KernelIdeal.dot_S512x64_S64x8192_S512x8192_1_0_0_1_n_n.rhsIdx (ix2 p q) ((contrEquiv1 Cert.KernelIdeal.dot_S512x64_S64x8192_S512x8192_1_0_0_1_n_n 64 rfl rfl).symm k) = ix2 k q := funext fun a => Fin.ext (by
    match a with
    | ⟨0, _⟩ => exact (rhs_lg_0 _ _).trans hk
    | ⟨1, _⟩ => exact rhs_lg_1 _ _)
  rw [el, er]

private theorem lhs_rs_0 (i : S1x512.Idx) (q : Cert.KernelIdeal.dot_S1x8192_S512x8192_S1x512_1_1_0_0_n_n.contr.Idx) :
    (Cert.KernelIdeal.dot_S1x8192_S512x8192_S1x512_1_1_0_0_n_n.lhsIdx i q 0).val = (i 0).val := by
  unfold DotDims.lhsIdx
  rw [dif_neg (show ¬(0 : Fin S1x8192.rank) ∈ Cert.KernelIdeal.dot_S1x8192_S512x8192_S1x512_1_1_0_0_n_n.lhsBatch by decide), dif_pos (show (0 : Fin S1x8192.rank) ∈ Cert.KernelIdeal.dot_S1x8192_S512x8192_S1x512_1_1_0_0_n_n.lhsNonContracting by decide)]
  rfl
private theorem lhs_rs_1 (i : S1x512.Idx) (q : Cert.KernelIdeal.dot_S1x8192_S512x8192_S1x512_1_1_0_0_n_n.contr.Idx) :
    (Cert.KernelIdeal.dot_S1x8192_S512x8192_S1x512_1_1_0_0_n_n.lhsIdx i q 1).val = (q ⟨0, by decide⟩).val :=
  Cert.KernelIdeal.dot_S1x8192_S512x8192_S1x512_1_1_0_0_n_n.lhsIdx_val_of_single rfl i q
private theorem rhs_rs_1 (i : S1x512.Idx) (q : Cert.KernelIdeal.dot_S1x8192_S512x8192_S1x512_1_1_0_0_n_n.contr.Idx) :
    (Cert.KernelIdeal.dot_S1x8192_S512x8192_S1x512_1_1_0_0_n_n.rhsIdx i q 1).val = (q ⟨0, by decide⟩).val :=
  Cert.KernelIdeal.dot_S1x8192_S512x8192_S1x512_1_1_0_0_n_n.rhsIdx_val_of_single rfl i q
private theorem rhs_rs_0 (i : S1x512.Idx) (q : Cert.KernelIdeal.dot_S1x8192_S512x8192_S1x512_1_1_0_0_n_n.contr.Idx) :
    (Cert.KernelIdeal.dot_S1x8192_S512x8192_S1x512_1_1_0_0_n_n.rhsIdx i q 0).val = (i 1).val := by
  unfold DotDims.rhsIdx
  rw [dif_neg (show ¬(0 : Fin S512x8192.rank) ∈ Cert.KernelIdeal.dot_S1x8192_S512x8192_S1x512_1_1_0_0_n_n.rhsBatch by decide), dif_pos (show (0 : Fin S512x8192.rank) ∈ Cert.KernelIdeal.dot_S1x8192_S512x8192_S1x512_1_1_0_0_n_n.rhsNonContracting by decide)]
  rfl
/-- The row sums' product: entry (0, r) is the left factor's one row against row r of the right one. -/
private theorem matmul_rs (lhs : FVec Ideal S1x8192 .f32) (rhs : FVec Ideal S512x8192 .f32) (p : Fin 1) (q : Fin 512) :
    matmul Cert.KernelIdeal.dot_S1x8192_S512x8192_S1x512_1_1_0_0_n_n none lhs rhs (constant S1x512 .f32 0x00000000#32) (ix2 p q)
      = ∑ k : Fin 8192, lhs (ix2 p k) * rhs (ix2 q k) := by
  refine (Ideal.matmul_constant_zero_apply Cert.KernelIdeal.dot_S1x8192_S512x8192_S1x512_1_1_0_0_n_n none lhs rhs (ix2 p q)).trans ?_
  rw [← Equiv.sum_comp (contrEquiv1 Cert.KernelIdeal.dot_S1x8192_S512x8192_S1x512_1_1_0_0_n_n 8192 rfl rfl).symm]
  refine Finset.sum_congr rfl fun k _ => ?_
  have hk := contrEquiv1_symm_val Cert.KernelIdeal.dot_S1x8192_S512x8192_S1x512_1_1_0_0_n_n 8192 rfl rfl k
  have el : Cert.KernelIdeal.dot_S1x8192_S512x8192_S1x512_1_1_0_0_n_n.lhsIdx (ix2 p q) ((contrEquiv1 Cert.KernelIdeal.dot_S1x8192_S512x8192_S1x512_1_1_0_0_n_n 8192 rfl rfl).symm k) = ix2 p k := funext fun a => Fin.ext (by
    match a with
    | ⟨0, _⟩ => exact lhs_rs_0 _ _
    | ⟨1, _⟩ => exact (lhs_rs_1 _ _).trans hk)
  have er : Cert.KernelIdeal.dot_S1x8192_S512x8192_S1x512_1_1_0_0_n_n.rhsIdx (ix2 p q) ((contrEquiv1 Cert.KernelIdeal.dot_S1x8192_S512x8192_S1x512_1_1_0_0_n_n 8192 rfl rfl).symm k) = ix2 q k := funext fun a => Fin.ext (by
    match a with
    | ⟨0, _⟩ => exact rhs_rs_0 _ _
    | ⟨1, _⟩ => exact (rhs_rs_1 _ _).trans hk)
  rw [el, er]

private theorem lhs_ou_0 (i : S16x8192.Idx) (q : Cert.KernelIdeal.dot_S16x512_S512x8192_S16x8192_1_0_0_1_n_n.contr.Idx) :
    (Cert.KernelIdeal.dot_S16x512_S512x8192_S16x8192_1_0_0_1_n_n.lhsIdx i q 0).val = (i 0).val := by
  unfold DotDims.lhsIdx
  rw [dif_neg (show ¬(0 : Fin S16x512.rank) ∈ Cert.KernelIdeal.dot_S16x512_S512x8192_S16x8192_1_0_0_1_n_n.lhsBatch by decide), dif_pos (show (0 : Fin S16x512.rank) ∈ Cert.KernelIdeal.dot_S16x512_S512x8192_S16x8192_1_0_0_1_n_n.lhsNonContracting by decide)]
  rfl
private theorem lhs_ou_1 (i : S16x8192.Idx) (q : Cert.KernelIdeal.dot_S16x512_S512x8192_S16x8192_1_0_0_1_n_n.contr.Idx) :
    (Cert.KernelIdeal.dot_S16x512_S512x8192_S16x8192_1_0_0_1_n_n.lhsIdx i q 1).val = (q ⟨0, by decide⟩).val :=
  Cert.KernelIdeal.dot_S16x512_S512x8192_S16x8192_1_0_0_1_n_n.lhsIdx_val_of_single rfl i q
private theorem rhs_ou_0 (i : S16x8192.Idx) (q : Cert.KernelIdeal.dot_S16x512_S512x8192_S16x8192_1_0_0_1_n_n.contr.Idx) :
    (Cert.KernelIdeal.dot_S16x512_S512x8192_S16x8192_1_0_0_1_n_n.rhsIdx i q 0).val = (q ⟨0, by decide⟩).val :=
  Cert.KernelIdeal.dot_S16x512_S512x8192_S16x8192_1_0_0_1_n_n.rhsIdx_val_of_single rfl i q
private theorem rhs_ou_1 (i : S16x8192.Idx) (q : Cert.KernelIdeal.dot_S16x512_S512x8192_S16x8192_1_0_0_1_n_n.contr.Idx) :
    (Cert.KernelIdeal.dot_S16x512_S512x8192_S16x8192_1_0_0_1_n_n.rhsIdx i q 1).val = (i 1).val := by
  unfold DotDims.rhsIdx
  rw [dif_neg (show ¬(1 : Fin S512x8192.rank) ∈ Cert.KernelIdeal.dot_S16x512_S512x8192_S16x8192_1_0_0_1_n_n.rhsBatch by decide), dif_pos (show (1 : Fin S512x8192.rank) ∈ Cert.KernelIdeal.dot_S16x512_S512x8192_S16x8192_1_0_0_1_n_n.rhsNonContracting by decide)]
  rfl
/-- The output's product: entry (b, j) is row b of the left factor against column j of the right one. -/
private theorem matmul_ou (lhs : FVec Ideal S16x512 .f32) (rhs : FVec Ideal S512x8192 .f32) (p : Fin 16) (q : Fin 8192) :
    matmul Cert.KernelIdeal.dot_S16x512_S512x8192_S16x8192_1_0_0_1_n_n none lhs rhs (constant S16x8192 .f32 0x00000000#32) (ix2 p q)
      = ∑ k : Fin 512, lhs (ix2 p k) * rhs (ix2 k q) := by
  refine (Ideal.matmul_constant_zero_apply Cert.KernelIdeal.dot_S16x512_S512x8192_S16x8192_1_0_0_1_n_n none lhs rhs (ix2 p q)).trans ?_
  rw [← Equiv.sum_comp (contrEquiv1 Cert.KernelIdeal.dot_S16x512_S512x8192_S16x8192_1_0_0_1_n_n 512 rfl rfl).symm]
  refine Finset.sum_congr rfl fun k _ => ?_
  have hk := contrEquiv1_symm_val Cert.KernelIdeal.dot_S16x512_S512x8192_S16x8192_1_0_0_1_n_n 512 rfl rfl k
  have el : Cert.KernelIdeal.dot_S16x512_S512x8192_S16x8192_1_0_0_1_n_n.lhsIdx (ix2 p q) ((contrEquiv1 Cert.KernelIdeal.dot_S16x512_S512x8192_S16x8192_1_0_0_1_n_n 512 rfl rfl).symm k) = ix2 p k := funext fun a => Fin.ext (by
    match a with
    | ⟨0, _⟩ => exact lhs_ou_0 _ _
    | ⟨1, _⟩ => exact (lhs_ou_1 _ _).trans hk)
  have er : Cert.KernelIdeal.dot_S16x512_S512x8192_S16x8192_1_0_0_1_n_n.rhsIdx (ix2 p q) ((contrEquiv1 Cert.KernelIdeal.dot_S16x512_S512x8192_S16x8192_1_0_0_1_n_n 512 rfl rfl).symm k) = ix2 k q := funext fun a => Fin.ext (by
    match a with
    | ⟨0, _⟩ => exact (rhs_ou_0 _ _).trans hk
    | ⟨1, _⟩ => exact rhs_ou_1 _ _)
  rw [el, er]

/-! ## A column broadcast along the rows, and the pattern of one -/

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word `0x3F800000` denotes the extended real one. -/
private theorem ofBits_one_f32 : Ideal.ofBits .f32 0x3F800000#32 = 1 :=
  IdealRules.sign_bit.ideal_onePat .f32

/-! ## The scratch payload -/

/-- The scratch payload at (h, s): the key weights' row h against the embedding's row s, plus the key bias (a column). -/
theorem pay1_apply (wk : Vec Ideal S64x128 .f32) (emb : Vec Ideal S8192x128 .f32) (bkc : Vec Ideal S64x1 .f32)
    (h : Fin 64) (s : Fin 8192) :
    k0_pay1 (F := Ideal) wk emb bkc (ix2 h s) = (∑ d : Fin 128, wk (ix2 h d) * emb (ix2 s d)) + bkc (ix2 h 0) := by
  unfold k0_pay1
  rw [shapeCast_self, shapeCast_self, addf_apply, matmul_kf]
  exact congrArg (_ + ·) (broadcastTo_a1_ab_apply bkc broadcasts_S64x1_S64x8192 h s)

/-! ## The output payload -/

/-- The exponentials: entry (r, k) is the exponential of row r's logit at column k. -/
private theorem expo_apply (eb : FVec Ideal S512x128 .f32) (wq : FVec Ideal S64x128 .f32) (bqr : FVec Ideal S1x64 .f32)
    (kt : FVec Ideal S64x8192 .f32) (r : Fin 512) (k : Fin 8192) :
    exp (matmul Cert.KernelIdeal.dot_S512x64_S64x8192_S512x8192_1_0_0_1_n_n none
        (addf (matmul Cert.KernelIdeal.dot_S512x128_S64x128_S512x64_1_1_0_0_n_n none eb wq (constant S512x64 .f32 0x00000000#32))
          (broadcastTo S512x64 (shapeCast S1x64 bqr shapeCasts_S1x64_S1x64) broadcasts_S1x64_S512x64))
        kt (constant S512x8192 .f32 0x00000000#32)) (ix2 r k)
      = Ideal.exp (∑ h : Fin 64, ((∑ d : Fin 128, eb (ix2 r d) * wq (ix2 h d)) + bqr (ix2 0 h)) * kt (ix2 h k)) := by
  show FloatOps.exp _ = _
  rw [Ideal.exp_def, matmul_lg]
  refine congrArg Ideal.exp (Finset.sum_congr rfl fun h _ => ?_)
  rw [addf_apply, matmul_qf, shapeCast_self, broadcastTo_1b_ab_apply]

/-- The output payload over any array of exponentials: what the buffer held plus, over the rows, the belief entry divided
    by the row's sum, times the row's entry at the column. -/
private theorem pay3_core (E : FVec Ideal S512x8192 .f32) (bb : FVec Ideal S16x512 .f32) (acc : FVec Ideal S16x8192 .f32)
    (b : Fin 16) (j : Fin 8192) :
    addf (shapeCast S16x8192 acc shapeCasts_S16x8192_S16x8192)
        (matmul Cert.KernelIdeal.dot_S16x512_S512x8192_S16x8192_1_0_0_1_n_n none
          (divf bb (broadcastTo S16x512
            (matmul Cert.KernelIdeal.dot_S1x8192_S512x8192_S1x512_1_1_0_0_n_n none
              (broadcast S1x8192 (Scalar.ofBits .f32 0x3F800000#32)) E (constant S1x512 .f32 0x00000000#32))
            broadcasts_S1x512_S16x512))
          E (constant S16x8192 .f32 0x00000000#32)) (ix2 b j)
      = acc (ix2 b j) + ∑ r : Fin 512, Ideal.div (bb (ix2 b r)) (∑ k : Fin 8192, E (ix2 r k)) * E (ix2 r j) := by
  rw [addf_apply, shapeCast_self, matmul_ou]
  refine congrArg (acc (ix2 b j) + ·) (Finset.sum_congr rfl fun r _ => ?_)
  rw [divf_apply, broadcastTo_1b_ab_apply, matmul_rs]
  refine congrArg (fun z => Ideal.div (bb (ix2 b r)) z * E (ix2 r j)) (Finset.sum_congr rfl fun k _ => ?_)
  show Ideal.ofBits .f32 0x3F800000#32 * E (ix2 r k) = E (ix2 r k)
  rw [ofBits_one_f32, one_mul]

/-- The output payload at (b, j): what the buffer held plus, over the 512 rows r of the embedding block, the belief
    block's entry (b, r) divided by the row's sum of exponentials, times the row's exponential at column j; a row's logit
    at column k is its query features (embedding row against the query weights, plus the query bias, a row) against
    column k of the key features. -/
theorem pay3_apply (eb : Vec Ideal S512x128 .f32) (wq : Vec Ideal S64x128 .f32) (bqr : Vec Ideal S1x64 .f32)
    (kt : Vec Ideal S64x8192 .f32) (bb : Vec Ideal S16x512 .f32) (acc : Vec Ideal S16x8192 .f32) (b : Fin 16) (j : Fin 8192) :
    k0_pay3 (F := Ideal) eb wq bqr kt bb acc (ix2 b j)
      = acc (ix2 b j) + ∑ r : Fin 512,
          Ideal.div (bb (ix2 b r))
              (∑ k : Fin 8192, Ideal.exp (∑ h : Fin 64, ((∑ d : Fin 128, eb (ix2 r d) * wq (ix2 h d)) + bqr (ix2 0 h)) * kt (ix2 h k)))
            * Ideal.exp (∑ h : Fin 64, ((∑ d : Fin 128, eb (ix2 r d) * wq (ix2 h d)) + bqr (ix2 0 h)) * kt (ix2 h j)) := by
  unfold k0_pay3
  refine (pay3_core _ bb acc b j).trans ?_
  simp only [expo_apply]

end Cert.KernelIdeal.Pay

end
-- ==== Proof.KernelResult.lean ====
/-
  What the kernel's result array holds after the run, at the extended reals: `Spec.outVec` of the six argument arrays.

  The grid has sixteen points. The key features are computed once, at the first point, into a scratch that every later
  point reads; the output buffer is zeroed at the first point and every point t adds to it the contribution of the
  512 states 512 t .. 512 t + 511 (their belief entries divided by their rows' normalisers, against their rows of
  exponentials). So after point n the scratch holds the key features and the buffer holds the sum over the states below
  512 (n + 1) — by induction on the point — and the buffer is written back once, after the last point, when the sum
  runs over all 8192 states.
-/
import proofs.«113585_g5935644803188_cont_9to1c4b_610_2_alg».proof.Proof.Spec
import proofs.«113585_g5935644803188_cont_9to1c4b_610_2_alg».proof.Proof.KernelReads
import proofs.«113585_g5935644803188_cont_9to1c4b_610_2_alg».proof.Proof.KernelPayload
import proofs.«113585_g5935644803188_cont_9to1c4b_610_2_alg».proof.Proof.Gen.KernelIdeal.Value
import Idealize.ShloMosaic.PureOps.Ideal.Laws
import Idealize.ShloMosaic.Lib.Pipeline.Value

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Pieces Cert.KernelIdeal.Reads Cert.KernelIdeal.Pay
open Idealize.ShloMosaic.ValueIdx

variable (m : (ℓ : Loc nD τ sig) → Buf (Elt Ideal) ℓ) (ρ : Dev nD → PrngReg)

/-- The six argument arrays at launch, by their roles. -/
abbrev bel (c : Dev nD) : Vec Ideal S16x8192 .f32 := m ((c : Thread nD τ).loc main_arg0)
abbrev emb (c : Dev nD) : Vec Ideal S8192x128 .f32 := m ((c : Thread nD τ).loc main_arg1)
abbrev wk (c : Dev nD) : Vec Ideal S64x128 .f32 := m ((c : Thread nD τ).loc main_arg2)
abbrev bk (c : Dev nD) : Vec Ideal S64 .f32 := m ((c : Thread nD τ).loc main_arg3)
abbrev wq (c : Dev nD) : Vec Ideal S64x128 .f32 := m ((c : Thread nD τ).loc main_arg4)
abbrev bq (c : Dev nD) : Vec Ideal S64 .f32 := m ((c : Thread nD τ).loc main_arg5)

/-- The key features, as the scratch holds them from the first point on. -/
def keys (c : Dev nD) : Vec Ideal S64x8192 .f32 := fun y => Cert.Spec.keyT (emb m c) (wk m c) (bk m c) (y 0) (y 1)

/-- State `i`'s term of the result at (b, j); zero past the last state. -/
def rowTerm (c : Dev nD) (i : ℕ) (b : Fin 16) (j : Fin 8192) : EReal :=
  if h : i < 8192 then
    Ideal.div (bel m c (ix2 b ⟨i, h⟩)) (Cert.Spec.rowSum (emb m c) (wk m c) (bk m c) (wq m c) (bq m c) ⟨i, h⟩) * Cert.Spec.weight (emb m c) (wk m c) (bk m c) (wq m c) (bq m c) ⟨i, h⟩ j
  else 0

/-- The output buffer after point `n`: the states below 512 (n + 1) summed. -/
def partialOut (c : Dev nD) (n : ℕ) : Vec Ideal S16x8192 .f32 :=
  fun y => ∑ i ∈ Finset.range (512 * (n + 1)), rowTerm m c i (y 0) (y 1)

/-- The scratch payload over the key weights, the embedding and the key bias column is the key features. -/
theorem keys_of (c : Dev nD) (x4 : Vec Ideal S64x128 .f32) (x1 : Vec Ideal S8192x128 .f32) (x5 : Vec Ideal S64x1 .f32)
    (e4 : x4 = wk m c) (e1 : x1 = emb m c) (e5 : ∀ h : Fin 64, x5 (ix2 h 0) = bk m c (ix1 h)) :
    k0_pay1 (F := Ideal) x4 x1 x5 = keys m c := by
  subst e4 e1
  funext y
  obtain ⟨h, s, rfl⟩ : ∃ (h : Fin 64) (s : Fin 8192), y = ix2 h s := ⟨y 0, y 1, eq_ix2 y⟩
  rw [pay1_apply, e5]
  rfl

/-- One point's payload: over the key features in the scratch, point t adds the terms of states 512 t .. 512 t + 511. -/
theorem step_of (c : Dev nD) (t : Fin cfg0.N) (x0 : Vec Ideal S16x8192 .f32) (x1 : Vec Ideal S8192x128 .f32)
    (x2 : Vec Ideal S64x128 .f32) (x3 : Vec Ideal S1x64 .f32) (kt : Vec Ideal S64x8192 .f32) (acc : Vec Ideal S16x8192 .f32)
    (e0 : x0 = bel m c) (e1 : x1 = emb m c) (e2 : x2 = wq m c) (e3 : ∀ h : Fin 64, x3 (ix2 0 h) = bq m c (ix1 h))
    (ek : kt = keys m c) (b : Fin 16) (j : Fin 8192) :
    k0_pay3 (F := Ideal) (embRows (grid0.coords t) x1) x2 x3 kt (belCols (grid0.coords t) x0) acc (ix2 b j)
      = acc (ix2 b j) + ∑ r : Fin 512, rowTerm m c (512 * t.val + r.val) b j := by
  subst e0 e1 e2 ek
  rw [pay3_apply]
  refine congrArg (acc (ix2 b j) + ·) (Finset.sum_congr rfl fun r _ => ?_)
  unfold rowTerm
  rw [dif_pos (row_lt t r)]
  simp only [embRows_apply, belCols_apply, e3]
  rfl

/-- THE INVARIANT: after point `n` the output buffer holds the partial sum and the scratch the key features. -/
theorem outsAt_eq (c : Dev nD) : ∀ (n : ℕ) (h : n < cfg0.N), outsAt0 m c n h = (partialOut m c n, keys m c)
  | 0, h => by
    rw [outsAt0_A m c ⟨0, h⟩ rfl]
    have hk := keys_of m c (iblk m c 4 ⟨0, h⟩) (iblk m c 1 ⟨0, h⟩) (iblk m c 5 ⟨0, h⟩)
      ((iblk4 m c ⟨0, h⟩).trans (V_main_arg2 m c)) ((iblk1 m c ⟨0, h⟩).trans (V_main_arg1 m c))
      (fun hh => (congrFun (iblk5 m c ⟨0, h⟩) (ix2 hh 0)).trans (V_v1_apply m c hh))
    refine Prod.ext ?_ ?_
    · dsimp only
      rw [out_A, hk]
      funext y
      obtain ⟨b, j, rfl⟩ : ∃ (b : Fin 16) (j : Fin 8192), y = ix2 b j := ⟨y 0, y 1, eq_ix2 y⟩
      refine (step_of m c ⟨0, h⟩ (iblk m c 0 ⟨0, h⟩) (iblk m c 1 ⟨0, h⟩) (iblk m c 2 ⟨0, h⟩) (iblk m c 3 ⟨0, h⟩) _ _
        ((iblk0 m c ⟨0, h⟩).trans (V_main_arg0 m c)) ((iblk1 m c ⟨0, h⟩).trans (V_main_arg1 m c))
        ((iblk2 m c ⟨0, h⟩).trans (V_main_arg4 m c))
        (fun hh => (congrFun (iblk3 m c ⟨0, h⟩) (ix2 0 hh)).trans (V_v0_apply m c hh)) rfl b j).trans ?_
      show Ideal.ofBits .f32 0x00000000#32 + _ = ∑ i ∈ Finset.range 512, rowTerm m c i b j
      rw [Ideal.ofBits_zero_f32, zero_add, Finset.sum_range]
      refine Finset.sum_congr rfl fun r _ => ?_
      show rowTerm m c (512 * 0 + r.val) b j = _
      rw [Nat.mul_zero, Nat.zero_add]
    · dsimp only
      rw [sout_A, hk]
  | n + 1, h => by
    have hN : cfg0.N = 16 := N_0
    have hB : ¬(⟨n + 1, h⟩ : Fin cfg0.N).val % 16 = 0 := by dsimp only; omega
    have ih := outsAt_eq c n (Nat.lt_of_succ_lt h)
    rw [outsAt0_B m c ⟨n + 1, h⟩ hB]
    refine Prod.ext ?_ ?_
    · dsimp only
      rw [out_B]
      funext y
      obtain ⟨b, j, rfl⟩ : ∃ (b : Fin 16) (j : Fin 8192), y = ix2 b j := ⟨y 0, y 1, eq_ix2 y⟩
      refine (step_of m c ⟨n + 1, h⟩ (iblk m c 0 ⟨n + 1, h⟩) (iblk m c 1 ⟨n + 1, h⟩) (iblk m c 2 ⟨n + 1, h⟩) (iblk m c 3 ⟨n + 1, h⟩) _ _
        ((iblk0 m c ⟨n + 1, h⟩).trans (V_main_arg0 m c)) ((iblk1 m c ⟨n + 1, h⟩).trans (V_main_arg1 m c))
        ((iblk2 m c ⟨n + 1, h⟩).trans (V_main_arg4 m c))
        (fun hh => (congrFun (iblk3 m c ⟨n + 1, h⟩) (ix2 0 hh)).trans (V_v0_apply m c hh))
        (show (outsAt0 m c n (Nat.lt_of_succ_lt h)).2 = keys m c from by rw [ih]) b j).trans ?_
      show (outsAt0 m c n (Nat.lt_of_succ_lt h)).1 (ix2 b j) + _ = ∑ i ∈ Finset.range (512 * (n + 1) + 512), rowTerm m c i b j
      rw [ih, Finset.sum_range_add]
      exact congrArg₂ (· + ·) rfl (Finset.sum_range (fun x => rowTerm m c (512 * (n + 1) + x) b j)).symm
    · show (outsAt0 m c n (Nat.lt_of_succ_lt h)).2 = keys m c
      rw [ih]

/-- The result: `Spec.outVec` of the argument arrays. -/
abbrev result (c : Dev nD) : Buf (Elt Ideal) ((c : Thread nD τ).loc main_v2) :=
  Cert.Spec.outVec (bel m c) (emb m c) (wk m c) (bk m c) (wq m c) (bq m c)

/-- After the last point the partial sum runs over every state. -/
theorem partial_last (c : Dev nD) : partialOut m c 15 = result m c := by
  funext y
  show ∑ i ∈ Finset.range 8192, rowTerm m c i (y 0) (y 1) = Cert.Spec.out (bel m c) (emb m c) (wk m c) (bk m c) (wq m c) (bq m c) (y 0) (y 1)
  unfold Cert.Spec.out
  rw [Finset.sum_range]
  refine Finset.sum_congr rfl fun i _ => ?_
  unfold rowTerm
  rw [dif_pos i.isLt]

/-- The one write-back, after point 15, writes it: block (0, 0) of the array read through zero offsets is the array. -/
theorem flushed_eq (c : Dev nD) (t : Fin cfg0.N) (hf : (cfg0.win 6).flush t = true) :
    (dats m 0 c).flushed 6 t = ((cfg0.win 6).blk t).view.read (Elt Ideal) (result m c) := by
  have hN : cfg0.N = 16 := N_0
  have h15 : t.val = 15 := by have := (flush0_6 t).mp hf; have := t.isLt; omega
  obtain rfl : t = t0_15 := Fin.ext h15
  show (cfg0.win 6).cut (grid0.coords t0_15) ((dats m 0 c).after 6 t0_15) = _
  rw [after0_6, outsAt_eq]
  show (cfg0.win 6).cut (grid0.coords t0_15) (partialOut m c 15) = _
  rw [partial_last]
  have hz' : (fun a => win0_6.index t0_15 a * main_v2.ty.shape.size a) = fun _ => 0 := funext fun a => by fin_cases a <;> decide
  exact (Memref.read_access_unit_zero (Elt Ideal) main_v2 hz' (fun a => by rw [congrFun hz' a]; simp) (result m c)).symm

/-- So the result array ends holding it: point 15's block covers the array. -/
theorem final_o (c : Dev nD) : (dats m 0 c).arrAt 6 cfg0.N = result m c :=
  (dats m 0 c).arrAt_eq_of_cover 6 (result m c) (flushed_eq m c) fun i =>
    ⟨t0_15, (flush0_6 t0_15).mpr rfl, by
      show i ∈ ((View.whole main_v2).slice (win0_6.rect t0_15)).set
      rw [View.set_slice_whole, Rect.mem_set_unit]
      intro a
      have h0 : (i 0 : Nat) < 16 := (i 0).isLt
      have h1 : (i 1 : Nat) < 8192 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 16 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 8192 from by decide +kernel]; omega⟩

/-- The run, read: the result array at `Spec.outVec` of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_o m c), (h c).2⟩) (Cert.KernelIdeal.Value.run_blocks m ρ)

end Cert.KernelIdeal.Result

end
-- ==== Proof.lean ====
/-
  The kernel streams the S × S transition logits block by block: per block of 512 states it forms the query features,
  multiplies them against key features computed once, exponentiates WITHOUT subtracting the row maximum, takes the row
  sums, divides the matching belief columns by them and accumulates the product with the exponentials into the output.
  The reference forms the whole logit matrix, applies the soft-max with the row maximum subtracted, and multiplies the
  belief by it. Over the extended reals, on finite inputs, every logit is a real number, so the subtracted maximum
  cancels between a row's numerator and denominator, dividing the belief entry or the exponential by the row sum is the
  same product, and a sum over 8192 states taken in sixteen blocks of 512 is the sum over the states: the two results
  are one function of the arguments (Spec.lean states it, Algebra.lean proves the two forms equal, KernelResult.lean
  reads the kernel's run as the one, RefValue.lean the reference's run as the other, Finite.lean opens the precondition).
  The ideal pass rewrote nothing, so the preservation claim is trivial, and the three frames are the generated runs.
-/
import proofs.«113585_g5935644803188_cont_9to1c4b_610_2_alg».proof.Defs
import proofs.«113585_g5935644803188_cont_9to1c4b_610_2_alg».proof.Proof.Gen.Kernel
import proofs.«113585_g5935644803188_cont_9to1c4b_610_2_alg».proof.Proof.Gen.Kernel.Skeleton
import proofs.«113585_g5935644803188_cont_9to1c4b_610_2_alg».proof.Proof.Gen.Kernel.Launch
import proofs.«113585_g5935644803188_cont_9to1c4b_610_2_alg».proof.Proof.Gen.Kernel.Points
import proofs.«113585_g5935644803188_cont_9to1c4b_610_2_alg».proof.Proof.Gen.Kernel.Frame
import proofs.«113585_g5935644803188_cont_9to1c4b_610_2_alg».proof.Proof.Gen.KernelIdeal
import proofs.«113585_g5935644803188_cont_9to1c4b_610_2_alg».proof.Proof.Gen.KernelIdeal.Skeleton
import proofs.«113585_g5935644803188_cont_9to1c4b_610_2_alg».proof.Proof.Gen.KernelIdeal.Launch
import proofs.«113585_g5935644803188_cont_9to1c4b_610_2_alg».proof.Proof.Gen.KernelIdeal.Points
import proofs.«113585_g5935644803188_cont_9to1c4b_610_2_alg».proof.Proof.Gen.KernelIdeal.Frame
import proofs.«113585_g5935644803188_cont_9to1c4b_610_2_alg».proof.Proof.Gen.ReferenceIdeal
import proofs.«113585_g5935644803188_cont_9to1c4b_610_2_alg».proof.Proof.Gen.Pre_finite_inputs
import proofs.«113585_g5935644803188_cont_9to1c4b_610_2_alg».proof.Proof.Gen.KernelIdeal.Value
import proofs.«113585_g5935644803188_cont_9to1c4b_610_2_alg».proof.Proof.Gen.ReferenceIdeal.Run
import proofs.«113585_g5935644803188_cont_9to1c4b_610_2_alg».proof.Proof.Gen.ReferenceIdeal.Read
import proofs.«113585_g5935644803188_cont_9to1c4b_610_2_alg».proof.Proof.Algebra
import proofs.«113585_g5935644803188_cont_9to1c4b_610_2_alg».proof.Proof.Finite
import proofs.«113585_g5935644803188_cont_9to1c4b_610_2_alg».proof.Proof.RefValue
import proofs.«113585_g5935644803188_cont_9to1c4b_610_2_alg».proof.Proof.KernelResult
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `Spec.outVec` of the arguments: the kernel's by the induction over the grid, the reference's by reading
    its operations at an index and cancelling the soft-max's shift, which needs the inputs finite. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1,
    (hagree c).2.2.2.2.1, (hagree c).2.2.2.2.2]
  obtain ⟨f0, f1, f2, f3, f4, f5⟩ := Cert.Finite.real_of_pre _ _ _ _ _ _ (hpre c)
  funext y
  obtain ⟨b, j, rfl⟩ : ∃ (b : Fin 16) (j : Fin 8192), y = ValueIdx.ix2 b j := ⟨y 0, y 1, ValueIdx.eq_ix2 y⟩
  exact (Cert.RefValue.ref_eq _ _ _ _ _ _ (ValueIdx.ix2 b j)).trans
    (Cert.Spec.refOut_eq_out _ _ _ _ _ _ f0 f1 f2 f3 f4 f5 b j)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
